-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_arg15 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  main_v78

def fn_part3 {F : FTy → Type} [FloatOps F] (main_arg11 : FVec F S1024 .f32) (main_arg12 : FVec F S1024 .f32) (main_arg13 : FVec F S1024 .f32) (main_arg14 : FVec F S1024x1024 .f32) (main_arg15 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_v63 main_v67

def fn_part2 {F : FTy → Type} [FloatOps F] (main_arg7 : FVec F S1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024x1024 .f32) (main_arg15 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024x1024 .f32) (main_arg15 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024x1024 .f32) (main_arg15 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 32
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x1024.size a ≤ S1024x1024.size a
  hwx0_14 : ∀ i : grid0.Coords, EltTy.bits .bf16 = 32 ∨ (Rect.block (s := S1024x1024) S1024x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S8192x1024.size a
  hwx0_16 : ∀ i : grid0.Coords, EltTy.bits .f32 = 32 ∨ (Rect.block (s := S8192x1024) S256x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x1024.size a ≤ S8192x1024.size a
  hwx0_17 : ∀ i : grid0.Coords, EltTy.bits .f32 = 32 ∨ (Rect.block (s := S8192x1024) S256x1024.size (cc0_transform_17 i) (hinb0_17 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1024x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v14_0) S256x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v14_1) S256x1024.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S1x1024, .f32⟩
  | .hbm, ⟨92, _⟩ => ⟨S8192x1024, .f32⟩
  | .hbm, ⟨93, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.GruRow.lean ====
/-
  One step of a gated recurrent cell, a layer normalisation of the new state and a dense read-out of the normalised
  state, written for ONE row of the batch over the extended reals.

  With `x` the row's input and `h` its previous state (1024 entries each), and `v W` standing for the row
  `j ↦ ∑ k, v k * W k j`:

    r  = σ (x Wir + bir + h Whr)                      the reset gate
    z  = σ (x Wiz + biz + h Whz)                      the update gate
    n  = tanh (x Win + bin + r * (h Whn + bhn))       the candidate state
    h' = (1 - z) * n + z * h                          the new state
    μ  = (∑ j, h' j) / 1024,   c = h' - μ,   s = (∑ j, c j * c j) / 1024
    y  = c * rsqrt (s + ε) * scale + shift            the normalised state
    o  = y Wout + bout                                the read-out

  σ is the logistic function `1 / (1 + e^(-t))`. The three constants `1`, `1024` and `ε` are kept as the float words the
  two programs share, so that nothing here depends on what those words denote. Every sum is a finite sum over `Fin 1024`
  in the order-free sense of a commutative monoid: neither program's order of accumulation is visible here.
-/
import Idealize.ShloMosaic.PureOps.Ideal.Laws
import Idealize.ShloMosaic.Lib.ValueIdx
import Idealize.ShloMosaic.Lib.IdealHost

noncomputable section

namespace Cert.GruRow

open Idealize.ShloMosaic Idealize.ShloMosaic.ValueIdx

/-- A row of the batch: 1024 extended reals. -/
abbrev Row : Type := Fin 1024 → EReal

/-- A square weight matrix, `W k j` with `k` the coordinate that is summed over. -/
abbrev Mat : Type := Fin 1024 → Fin 1024 → EReal

/-- The row `v W`: entry `j` is `∑ k, v k * W k j`. -/
def lin (W : Mat) (v : Row) : Row := fun j => ∑ k : Fin 1024, v k * W k j

/-- The fourteen parameter arrays of the cell, the normalisation and the read-out. -/
structure Weights where
  Wir : Mat
  bir : Row
  Wiz : Mat
  biz : Row
  Win : Mat
  bin : Row
  Whr : Mat
  Whz : Mat
  Whn : Mat
  bhn : Row
  scale : Row
  shift : Row
  Wout : Mat
  bout : Row

/-- The float word both programs print for `1.0`. -/
def one : EReal := Ideal.ofBits .f32 0x3F800000#32
/-- The float word both programs print for the row width `1024.0`. -/
def width : EReal := Ideal.ofBits .f32 0x44800000#32
/-- The float word both programs print for the normalisation's `ε`. -/
def eps : EReal := Ideal.ofBits .f32 0x358637BD#32

variable (P : Weights) (x h : Row)

/-- The reset gate `σ (x Wir + bir + h Whr)`. -/
def resetGate : Row := fun j => Ideal.logistic (lin P.Wir x j + P.bir j + lin P.Whr h j)

/-- The update gate `σ (x Wiz + biz + h Whz)`. -/
def updateGate : Row := fun j => Ideal.logistic (lin P.Wiz x j + P.biz j + lin P.Whz h j)

/-- The candidate state `tanh (x Win + bin + r * (h Whn + bhn))`. -/
def candidate : Row := fun j =>
  Ideal.tanh (lin P.Win x j + P.bin j + resetGate P x h j * (lin P.Whn h j + P.bhn j))

/-- The new state `(1 - z) * n + z * h`. -/
def newState : Row := fun j =>
  (one - updateGate P x h j) * candidate P x h j + updateGate P x h j * h j

/-- The mean of the new state's entries. -/
def mean : EReal := Ideal.div (∑ k : Fin 1024, newState P x h k) width

/-- The new state with its mean taken off. -/
def centred : Row := fun j => newState P x h j - mean P x h

/-- The mean of the squares of the centred entries. -/
def variance : EReal := Ideal.div (∑ k : Fin 1024, centred P x h k * centred P x h k) width

/-- The normalised state `c * rsqrt (s + ε) * scale + shift`. -/
def normed : Row := fun j =>
  centred P x h j * Ideal.rsqrt (variance P x h + eps) * P.scale j + P.shift j

/-- The read-out `y Wout + bout`. -/
def readout : Row := fun j => lin P.Wout (normed P x h) j + P.bout j

/-! ## From arrays to rows, and the two results as whole arrays -/

/-- Row `r` of an `[n, 1024]` array. -/
def rowAt {n : ℕ} (a : (⟨2, ![n, 1024]⟩ : Shape).Idx → EReal) (r : Fin n) : Row := fun k => a (ix2 r k)

/-- A `[1024, 1024]` array as a matrix. -/
def matOf (w : (⟨2, ![1024, 1024]⟩ : Shape).Idx → EReal) : Mat := fun k j => w (ix2 k j)

/-- A `[1024]` array as a row. -/
def rowOfVec (b : (⟨1, ![1024]⟩ : Shape).Idx → EReal) : Row := fun j => b (ix1 j)

/-- The one row of a `[1, 1024]` array. -/
def rowOfOneRow (b : (⟨2, ![1, 1024]⟩ : Shape).Idx → EReal) : Row := fun j => b (ix2 (0 : Fin 1) j)

/-- The weights from fourteen arrays whose seven row-shaped ones are `[1, 1024]` arrays. -/
def weightsOfOneRows (wir : (⟨2, ![1024, 1024]⟩ : Shape).Idx → EReal) (bir : (⟨2, ![1, 1024]⟩ : Shape).Idx → EReal)
    (wiz : (⟨2, ![1024, 1024]⟩ : Shape).Idx → EReal) (biz : (⟨2, ![1, 1024]⟩ : Shape).Idx → EReal)
    (win : (⟨2, ![1024, 1024]⟩ : Shape).Idx → EReal) (bin : (⟨2, ![1, 1024]⟩ : Shape).Idx → EReal)
    (whr whz whn : (⟨2, ![1024, 1024]⟩ : Shape).Idx → EReal) (bhn scale shift : (⟨2, ![1, 1024]⟩ : Shape).Idx → EReal)
    (wout : (⟨2, ![1024, 1024]⟩ : Shape).Idx → EReal) (bout : (⟨2, ![1, 1024]⟩ : Shape).Idx → EReal) : Weights :=
  ⟨matOf wir, rowOfOneRow bir, matOf wiz, rowOfOneRow biz, matOf win, rowOfOneRow bin, matOf whr, matOf whz, matOf whn,
    rowOfOneRow bhn, rowOfOneRow scale, rowOfOneRow shift, matOf wout, rowOfOneRow bout⟩

/-- The weights from fourteen arrays whose seven row-shaped ones are `[1024]` arrays. -/
def weightsOfVecs (wir : (⟨2, ![1024, 1024]⟩ : Shape).Idx → EReal) (bir : (⟨1, ![1024]⟩ : Shape).Idx → EReal)
    (wiz : (⟨2, ![1024, 1024]⟩ : Shape).Idx → EReal) (biz : (⟨1, ![1024]⟩ : Shape).Idx → EReal)
    (win : (⟨2, ![1024, 1024]⟩ : Shape).Idx → EReal) (bin : (⟨1, ![1024]⟩ : Shape).Idx → EReal)
    (whr whz whn : (⟨2, ![1024, 1024]⟩ : Shape).Idx → EReal) (bhn scale shift : (⟨1, ![1024]⟩ : Shape).Idx → EReal)
    (wout : (⟨2, ![1024, 1024]⟩ : Shape).Idx → EReal) (bout : (⟨1, ![1024]⟩ : Shape).Idx → EReal) : Weights :=
  ⟨matOf wir, rowOfVec bir, matOf wiz, rowOfVec biz, matOf win, rowOfVec bin, matOf whr, matOf whz, matOf whn,
    rowOfVec bhn, rowOfVec scale, rowOfVec shift, matOf wout, rowOfVec bout⟩

/-- The new state of every row of a batch of `n` rows, as one array: entry `(r, j)` is entry `j` of the new state of
    row `r` of the inputs and row `r` of the previous states. -/
def newStateArray {n : ℕ} (P : Weights) (X H : (⟨2, ![n, 1024]⟩ : Shape).Idx → EReal) :
    (⟨2, ![n, 1024]⟩ : Shape).Idx → EReal :=
  fun i => newState P (rowAt X (i 0)) (rowAt H (i 0)) (i 1)

/-- The read-out of every row of the batch, as one array. -/
def readoutArray {n : ℕ} (P : Weights) (X H : (⟨2, ![n, 1024]⟩ : Shape).Idx → EReal) :
    (⟨2, ![n, 1024]⟩ : Shape).Idx → EReal :=
  fun i => readout P (rowAt X (i 0)) (rowAt H (i 0)) (i 1)

/-! ## Small facts both sides use -/

/-- Two indices of a rank-2 shape with the same two coordinates are one index. -/
theorem idx2_ext {n0 n1 : ℕ} (f g : (⟨2, ![n0, n1]⟩ : Shape).Idx) (h0 : (f 0).val = (g 0).val) (h1 : (f 1).val = (g 1).val) :
    f = g :=
  funext fun a => Fin.ext (by
    match a with
    | ⟨0, _⟩ => exact h0
    | ⟨1, _⟩ => exact h1)

/-- Two indices of a rank-1 shape with the same coordinate are one index. -/
theorem idx1_ext {n0 : ℕ} (f g : (⟨1, ![n0]⟩ : Shape).Idx) (h0 : (f 0).val = (g 0).val) : f = g :=
  funext fun a => Fin.ext (by
    match a with
    | ⟨0, _⟩ => exact h0)

/-- A sum of products whose left factors run along row `r` of `a` and whose right factors run down column `j` of `w`
    is entry `j` of the row `(row r of a) w`. -/
theorem sum_rows {n : ℕ} (a : (⟨2, ![n, 1024]⟩ : Shape).Idx → EReal) (w : (⟨2, ![1024, 1024]⟩ : Shape).Idx → EReal)
    (r : Fin n) (j : Fin 1024) (L : Fin 1024 → (⟨2, ![n, 1024]⟩ : Shape).Idx) (R : Fin 1024 → (⟨2, ![1024, 1024]⟩ : Shape).Idx)
    (hL : ∀ k, L k = ix2 r k) (hR : ∀ k, R k = ix2 k j) :
    ∑ k : Fin 1024, a (L k) * w (R k) = lin (matOf w) (rowAt a r) j :=
  Finset.sum_congr rfl fun k _ => by rw [hL, hR]; rfl

/-- The logistic function spelt out with the programs' word for `1.0`: that word denotes `1`. -/
theorem logistic_spelt (t : EReal) : Ideal.div one (one + Ideal.exp (-t)) = Ideal.logistic t := by
  unfold one
  rw [Ideal.ofBits_one_f32]
  rfl

/-- A sum started from the programs' word for `0.0` is the sum: that word denotes `0`. -/
theorem zero_word_add (s : EReal) : Ideal.ofBits .f32 0x00000000#32 + s = s := by
  rw [Ideal.ofBits_zero_f32, zero_add]

end Cert.GruRow

end
-- ==== Proof.LibColumns.lean ====
/-
  A column of per-row values, the way a row-wise reduction with `keepdims` produces and consumes it: a vector of `a`
  values cast to the column shape `[a, 1]`, and that column broadcast across `b` lanes to `[a, b]`. Each read at an
  index: the column holds the vector's `i`-th value in its row `i`, and the broadcast holds row `p`'s one value in
  every lane of row `p`. (The companions for a row, `[a] → [1, a]` and `[1, b] → [a, b]`, are the library's.)
-/
import Idealize.ShloMosaic.Lib.Pipeline.Value
import Idealize.ShloMosaic.Lib.ValueIdx

namespace Cert.LibColumns

open Idealize.ShloMosaic Idealize.ShloMosaic.ValueIdx

variable {α : Type}

/-- An `[a]` array cast to `[a, 1]` reads, at `(i, u)`, the operand at `i`, whatever the unit coordinate `u`: the
    two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read
    at `0`, the row axis at `p` (also when `a = 1`, where `p` is `0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.BlockOps.lean ====
/-
  The kernel's vector operations on one block of 256 rows, read at an index of the block at the ideal values: the sum
  along a row's lanes, and the product of the block with a square matrix accumulated from zero. Both are plain finite
  sums over the 1024 lanes.
-/
import proofs.«412498_j20117626814952_3_alg».proof.Proof.Gen.KernelIdeal
import Idealize.ShloMosaic.PureOps.Ideal.Laws
import Idealize.ShloMosaic.Lib.ValueIdx

noncomputable section

namespace Cert.GruBlock

open Idealize.ShloMosaic Idealize.ShloMosaic.ValueIdx Cert.KernelIdeal

/-- The sum along the lanes of a block, read at row `p`: the sum of that row's 1024 entries. -/
theorem laneSum_apply (v : FVec Ideal S256x1024 .f32) (h : S256x1024.Reduces [1] S256) (hφ : FKind.Formats .f32)
    (hacc : (0x00000000#32 : BitVec 32) = FKind.add.neutral .f32 hφ) (p : Fin 256) :
    multiReduction .add [1] S256 v 0x00000000#32 h hφ hacc (ix1 p) = ∑ k : Fin 1024, v (ix2 p k) := by
  refine (Ideal.multiReduction_add_single v 0x00000000#32 h hφ hacc (ix1 p)).trans ?_
  refine Finset.sum_congr rfl fun k _ => congrArg v ?_
  funext d
  match d with
  | ⟨0, _⟩ => rfl
  | ⟨1, _⟩ => rfl

/-- The left operand's row coordinate is the output's. -/
theorem lhs_axis0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl

/-- The left operand's lane coordinate is the summed one. -/
theorem lhs_axis1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q

/-- The right operand's row coordinate is the summed one. -/
theorem rhs_axis0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q

/-- The right operand's column coordinate is the output's. -/
theorem rhs_axis1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product of a block with a square matrix, accumulated from zero, read at `(p, q)`: the sum over `k` of the
    block's row `p` at `k` times the matrix's column `q` at `k`. -/
theorem matmul_row {φ₁ φ₂ : FTy} (a : FVec Ideal S256x1024 φ₁) (w : FVec Ideal S1024x1024 φ₂) (p : Fin 256) (q : Fin 1024) :
    matmul dot_S256x1024_S1024x1024_S256x1024_1_0_0_1_n_n none a w (constant (F := Ideal) S256x1024 .f32 0x00000000#32) (ix2 p q)
      = ∑ k : Fin 1024, a (ix2 p k) * w (ix2 k q) := by
  refine (Ideal.matmul_constant_zero_apply dot_S256x1024_S1024x1024_S256x1024_1_0_0_1_n_n none a w (ix2 p q)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

end Cert.GruBlock

end
-- ==== Proof.BlockRow.lean ====
/-
  What one grid point computes on its block of 256 rows, read at row `p` and lane `q` at the ideal values: the value it
  stores as the block of the new state is the new state of the block's row `p`, and the value it stores as the block of
  the read-out is the read-out of that row. On the way: the centred new state of the row, and its variance with `ε` added
  (held in the one lane of a column). The previous state enters twice, once as the narrowed operand of the three state
  products and once unnarrowed in the blend; at the ideal values the narrowing is the identity, so the two are one row
  (hypothesis `hh`).
-/
import proofs.«412498_j20117626814952_3_alg».proof.Proof.Gen.KernelIdeal.Skeleton
import proofs.«412498_j20117626814952_3_alg».proof.Proof.GruRow
import proofs.«412498_j20117626814952_3_alg».proof.Proof.LibColumns
import proofs.«412498_j20117626814952_3_alg».proof.Proof.BlockOps
import Idealize.ShloMosaic.Lib.ValueLayout
import Idealize.ShloMosaic.Lib.Pipeline.Value

noncomputable section

namespace Cert.GruBlock

open Idealize.ShloMosaic Idealize.ShloMosaic.ValueIdx Cert.KernelIdeal Cert.KernelIdeal.Gen Cert.GruRow Cert.LibColumns

theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl
theorem rsqrt_apply {s : Shape} {φ : FTy} (v : FVec Ideal s φ) (i : s.Idx) : rsqrt v i = Ideal.rsqrt (v i) := rfl

section
variable (xb hb : FVec Ideal S256x1024 .bf16) (h : Vec Ideal S256x1024 .f32) (hh : hb = h)
  (wir wiz win whr whz whn : FVec Ideal S1024x1024 .bf16) (bir biz bin bhn sc sh : FVec Ideal S1x1024 .f32)
  (wout : FVec Ideal S1024x1024 .bf16) (bo : FVec Ideal S1x1024 .f32)

include hh

/-- The value a grid point stores as its block of the new state, at row `p` and lane `q`: the new state of the block's
    row `p`. -/
theorem newState_block (p : Fin 256) (q : Fin 1024) :
    k0_pay18 xb h hb wir wiz win whr whz whn bir biz bin bhn (ix2 p q)
      = newState (weightsOfOneRows wir bir wiz biz win bin whr whz whn bhn sc sh wout bo) (rowAt xb p) (rowAt h p) q := by
  subst hh
  unfold k0_pay18
  simp only [addf_apply, mulf_apply, subf_apply, broadcast_apply, logistic_apply, tanh_apply, matmul_row,
    broadcastTo_1b_ab_apply]
  rfl

/-- The centred new state of the block's row `p`. -/
theorem centred_block (p : Fin 256) (q : Fin 1024) :
    k0_pay19 xb h hb wir wiz win whr whz whn bir biz bin bhn (ix2 p q)
      = centred (weightsOfOneRows wir bir wiz biz win bin whr whz whn bhn sc sh wout bo) (rowAt xb p) (rowAt h p) q := by
  unfold k0_pay19
  simp only [subf_apply, divf_apply, broadcast_apply, broadcastTo_a1_ab_apply, shapeCast_a_a1_apply]
  refine congrArg₂ (fun a s => a - Ideal.div s width) (newState_block xb hb h hh wir wiz win whr whz whn bir biz bin bhn sc sh wout bo p q) ?_
  exact (laneSum_apply _ _ _ _ p).trans (Finset.sum_congr rfl fun k _ => newState_block xb hb h hh wir wiz win whr whz whn bir biz bin bhn sc sh wout bo p k)

/-- The variance of the block's row `p`, with `ε` added, in the one lane of the column that holds it. -/
theorem variance_block (p : Fin 256) (u : Fin 1) :
    k0_pay20 xb h hb wir wiz win whr whz whn bir biz bin bhn (ix2 p u)
      = variance (weightsOfOneRows wir bir wiz biz win bin whr whz whn bhn sc sh wout bo) (rowAt xb p) (rowAt h p) + eps := by
  unfold k0_pay20
  simp only [addf_apply, divf_apply, broadcast_apply, shapeCast_a_a1_apply]
  refine congrArg (fun s => Ideal.div s width + eps) ?_
  refine (laneSum_apply _ _ _ _ p).trans (Finset.sum_congr rfl fun k _ => ?_)
  show k0_pay19 xb h hb wir wiz win whr whz whn bir biz bin bhn (ix2 p k)
      * k0_pay19 xb h hb wir wiz win whr whz whn bir biz bin bhn (ix2 p k) = _
  rw [centred_block xb hb h hh wir wiz win whr whz whn bir biz bin bhn sc sh wout bo]

/-- The value a grid point stores as its block of the read-out, at row `p` and lane `q`: the read-out of the block's
    row `p`. -/
theorem readout_block (p : Fin 256) (q : Fin 1024) :
    k0_pay1 wout sc sh bo (k0_pay19 xb h hb wir wiz win whr whz whn bir biz bin bhn)
        (k0_pay20 xb h hb wir wiz win whr whz whn bir biz bin bhn) (ix2 p q)
      = readout (weightsOfOneRows wir bir wiz biz win bin whr whz whn bhn sc sh wout bo) (rowAt xb p) (rowAt h p) q := by
  unfold k0_pay1
  simp only [addf_apply, mulf_apply, rsqrt_apply, truncf_apply, matmul_row, broadcastTo_1b_ab_apply, broadcastTo_a1_ab_apply,
    centred_block xb hb h hh wir wiz win whr whz whn bir biz bin bhn sc sh wout bo,
    variance_block xb hb h hh wir wiz win whr whz whn bir biz bin bhn sc sh wout bo]
  rfl

end

end Cert.GruBlock

end
-- ==== Proof.KernelArrays.lean ====
/-
  From what one grid point computes to the kernel's two result arrays. The grid has 32 points; point `t` stages rows
  `256 t … 256 t + 255` of the inputs and of the previous states together with the whole of each of the fourteen parameter
  arrays, and writes back the same 256 rows of both results. Row `p` of what it writes back is the new state, and the
  read-out, of row `256 t + p` of the batch; the 32 blocks of rows tile the batch; so each result array ends as one
  function of the arrays in the launch memory: the new state, and the read-out, of every row.
-/
import proofs.«412498_j20117626814952_3_alg».proof.Proof.Gen.KernelIdeal.Value
import proofs.«412498_j20117626814952_3_alg».proof.Proof.BlockRow
import Idealize.ShloMosaic.Lib.Pipeline.Value
import Idealize.ShloMosaic.Lib.ValueLayout
import Idealize.ShloMosaic.Lib.StableHlo.Run
import Idealize.ShloMosaic.Lib.Tactic

noncomputable section

namespace Cert.GruKernel

open Cert.KernelIdeal Cert.KernelIdeal.Gen Idealize.ShloMosaic Idealize.ShloMosaic.TcCoe Idealize.SL.Sem
open Idealize.ShloMosaic.StableHlo Idealize.ShloMosaic.ValueIdx Cert.GruRow Cert.GruBlock
open Idealize.ShloMosaic.Pipeline (Dat)

variable (m : (ℓ : Loc nD τ sig) → Buf (Elt Ideal) ℓ) (ρ : Dev nD → PrngReg)

/-- Every load and store of the body goes through its buffer's whole rectangle: offsets zero. -/
theorem zeroOffsets : (![0, 0] : Fin 2 → Nat) = fun _ => 0 := funext fun a => by fin_cases a <;> rfl

/-! ## The two stored blocks over blocks of literal shapes -/

section
variable (x0 x1 : Vec Ideal S256x1024 .f32) (x2 : Vec Ideal S1024x1024 .bf16) (x3 : Vec Ideal S1x1024 .f32)
  (x4 : Vec Ideal S1024x1024 .bf16) (x5 : Vec Ideal S1x1024 .f32) (x6 : Vec Ideal S1024x1024 .bf16) (x7 : Vec Ideal S1x1024 .f32)
  (x8 x9 x10 : Vec Ideal S1024x1024 .bf16) (x11 x12 x13 : Vec Ideal S1x1024 .f32) (x14 : Vec Ideal S1024x1024 .bf16)
  (x15 : Vec Ideal S1x1024 .f32) (p : Fin 256) (q : Fin 1024)

/-- The block a point leaves in the new state's buffer, from the sixteen blocks it staged: row `p` is the new state of row
    `p` of the input block and of the previous-state block, under the fourteen parameter blocks. -/
theorem out16_apply :
    out0_16 x0 x1 x2 x3 x4 x5 x6 x7 x8 x9 x10 x11 x12 x13 x14 x15 (ix2 p q)
      = newState (weightsOfOneRows x2 x3 x4 x5 x6 x7 x8 x9 x10 x11 x12 x13 x14 x15) (rowAt x0 p) (rowAt x1 p) q := by
  unfold out0_16
  rw [View.canon_unit_zero zeroOffsets]
  simp only [View.ld_unit_zero (S := S256x1024) zeroOffsets, View.ld_unit_zero (S := S1024x1024) zeroOffsets,
    View.ld_unit_zero (S := S1x1024) zeroOffsets, k0_pay4, k0_pay5, k0_pay6, k0_pay7, k0_pay8, k0_pay9, k0_pay11, k0_pay12,
    k0_pay13, k0_pay14, shapeCast_self]
  exact newState_block (k0_pay2 x0) (k0_pay3 x1) x1 rfl x2 x4 x6 x8 x9 x10 x3 x5 x7 x11 x12 x13 x14 x15 p q

/-- The block a point leaves in the read-out's buffer: row `p` is the read-out of row `p`. -/
theorem out17_apply :
    out0_17 x0 x1 x2 x3 x4 x5 x6 x7 x8 x9 x10 x11 x12 x13 x14 x15 (ix2 p q)
      = readout (weightsOfOneRows x2 x3 x4 x5 x6 x7 x8 x9 x10 x11 x12 x13 x14 x15) (rowAt x0 p) (rowAt x1 p) q := by
  unfold out0_17
  rw [View.canon_unit_zero zeroOffsets]
  simp only [View.ld_unit_zero (S := S256x1024) zeroOffsets, View.ld_unit_zero (S := S1024x1024) zeroOffsets,
    View.ld_unit_zero (S := S1x1024) zeroOffsets, k0_pay4, k0_pay5, k0_pay6, k0_pay7, k0_pay8, k0_pay9, k0_pay10, k0_pay11,
    k0_pay12, k0_pay13, k0_pay14, k0_pay15, k0_pay16, k0_pay17, shapeCast_self]
  exact readout_block (k0_pay2 x0) (k0_pay3 x1) x1 rfl x2 x4 x6 x8 x9 x10 x3 x5 x7 x11 x12 x13 x14 x15 p q

end

/-! ## Where each window's block sits in its array, decided over the 32 grid points

Point `t` stages rows `256 t … 256 t + 255` of the inputs, of the previous states and of both results; every parameter
window stages its whole array at every point. -/
theorem rows_index0 : ∀ t : Fin cfg0.N, win0_0.index t (0 : Fin 2) = t.val ∧ win0_0.index t (1 : Fin 2) = 0 :=
  (by decide +kernel : ∀ t : Fin grid0.N, _)
theorem rows_index1 : ∀ t : Fin cfg0.N, win0_1.index t (0 : Fin 2) = t.val ∧ win0_1.index t (1 : Fin 2) = 0 :=
  (by decide +kernel : ∀ t : Fin grid0.N, _)
theorem rows_index16 : ∀ t : Fin cfg0.N, win0_16.index t (0 : Fin 2) = t.val ∧ win0_16.index t (1 : Fin 2) = 0 :=
  (by decide +kernel : ∀ t : Fin grid0.N, _)
theorem rows_index17 : ∀ t : Fin cfg0.N, win0_17.index t (0 : Fin 2) = t.val ∧ win0_17.index t (1 : Fin 2) = 0 :=
  (by decide +kernel : ∀ t : Fin grid0.N, _)
theorem whole_index2 : ∀ t : Fin cfg0.N, win0_2.index t (0 : Fin 2) = 0 ∧ win0_2.index t (1 : Fin 2) = 0 :=
  (by decide +kernel : ∀ t : Fin grid0.N, _)
theorem whole_index3 : ∀ t : Fin cfg0.N, win0_3.index t (0 : Fin 2) = 0 ∧ win0_3.index t (1 : Fin 2) = 0 :=
  (by decide +kernel : ∀ t : Fin grid0.N, _)
theorem whole_index4 : ∀ t : Fin cfg0.N, win0_4.index t (0 : Fin 2) = 0 ∧ win0_4.index t (1 : Fin 2) = 0 :=
  (by decide +kernel : ∀ t : Fin grid0.N, _)
theorem whole_index5 : ∀ t : Fin cfg0.N, win0_5.index t (0 : Fin 2) = 0 ∧ win0_5.index t (1 : Fin 2) = 0 :=
  (by decide +kernel : ∀ t : Fin grid0.N, _)
theorem whole_index6 : ∀ t : Fin cfg0.N, win0_6.index t (0 : Fin 2) = 0 ∧ win0_6.index t (1 : Fin 2) = 0 :=
  (by decide +kernel : ∀ t : Fin grid0.N, _)
theorem whole_index7 : ∀ t : Fin cfg0.N, win0_7.index t (0 : Fin 2) = 0 ∧ win0_7.index t (1 : Fin 2) = 0 :=
  (by decide +kernel : ∀ t : Fin grid0.N, _)
theorem whole_index8 : ∀ t : Fin cfg0.N, win0_8.index t (0 : Fin 2) = 0 ∧ win0_8.index t (1 : Fin 2) = 0 :=
  (by decide +kernel : ∀ t : Fin grid0.N, _)
theorem whole_index9 : ∀ t : Fin cfg0.N, win0_9.index t (0 : Fin 2) = 0 ∧ win0_9.index t (1 : Fin 2) = 0 :=
  (by decide +kernel : ∀ t : Fin grid0.N, _)
theorem whole_index10 : ∀ t : Fin cfg0.N, win0_10.index t (0 : Fin 2) = 0 ∧ win0_10.index t (1 : Fin 2) = 0 :=
  (by decide +kernel : ∀ t : Fin grid0.N, _)
theorem whole_index11 : ∀ t : Fin cfg0.N, win0_11.index t (0 : Fin 2) = 0 ∧ win0_11.index t (1 : Fin 2) = 0 :=
  (by decide +kernel : ∀ t : Fin grid0.N, _)
theorem whole_index12 : ∀ t : Fin cfg0.N, win0_12.index t (0 : Fin 2) = 0 ∧ win0_12.index t (1 : Fin 2) = 0 :=
  (by decide +kernel : ∀ t : Fin grid0.N, _)
theorem whole_index13 : ∀ t : Fin cfg0.N, win0_13.index t (0 : Fin 2) = 0 ∧ win0_13.index t (1 : Fin 2) = 0 :=
  (by decide +kernel : ∀ t : Fin grid0.N, _)
theorem whole_index14 : ∀ t : Fin cfg0.N, win0_14.index t (0 : Fin 2) = 0 ∧ win0_14.index t (1 : Fin 2) = 0 :=
  (by decide +kernel : ∀ t : Fin grid0.N, _)
theorem whole_index15 : ∀ t : Fin cfg0.N, win0_15.index t (0 : Fin 2) = 0 ∧ win0_15.index t (1 : Fin 2) = 0 :=
  (by decide +kernel : ∀ t : Fin grid0.N, _)

/-! ## The staged blocks read off their arrays -/

/-- Row `p` of point `t`'s block of window 0 is row `256 t + p` of its array. -/
theorem rowBlock0 (c : Dev nD) (t : Fin cfg0.N) (p : Fin 256) (r : Fin 8192) (hr : r.val = 256 * t.val + p.val) :
    rowAt (iblk m c 0 t : Vec Ideal S256x1024 .f32) p = rowAt (V m c main_arg0 : S8192x1024.Idx → EReal) r := by
  funext k
  show (iblk m c 0 t : Vec Ideal S256x1024 .f32) (ix2 p k) = (V m c main_arg0 : S8192x1024.Idx → EReal) (ix2 r k)
  unfold iblk
  rw [View.read_apply]
  show (V m c main_arg0 : S8192x1024.Idx → EReal) _ = _
  refine congrArg _ (funext fun a => Fin.ext ?_)
  match a with
  | ⟨0, _⟩ => show win0_0.index t (0 : Fin 2) * 256 + 1 * p.val = r.val; rw [(rows_index0 t).1, hr]; omega
  | ⟨1, _⟩ => show win0_0.index t (1 : Fin 2) * 1024 + 1 * k.val = k.val; rw [(rows_index0 t).2]; omega

/-- Row `p` of point `t`'s block of window 1 is row `256 t + p` of its array. -/
theorem rowBlock1 (c : Dev nD) (t : Fin cfg0.N) (p : Fin 256) (r : Fin 8192) (hr : r.val = 256 * t.val + p.val) :
    rowAt (iblk m c 1 t : Vec Ideal S256x1024 .f32) p = rowAt (V m c main_arg1 : S8192x1024.Idx → EReal) r := by
  funext k
  show (iblk m c 1 t : Vec Ideal S256x1024 .f32) (ix2 p k) = (V m c main_arg1 : S8192x1024.Idx → EReal) (ix2 r k)
  unfold iblk
  rw [View.read_apply]
  show (V m c main_arg1 : S8192x1024.Idx → EReal) _ = _
  refine congrArg _ (funext fun a => Fin.ext ?_)
  match a with
  | ⟨0, _⟩ => show win0_1.index t (0 : Fin 2) * 256 + 1 * p.val = r.val; rw [(rows_index1 t).1, hr]; omega
  | ⟨1, _⟩ => show win0_1.index t (1 : Fin 2) * 1024 + 1 * k.val = k.val; rw [(rows_index1 t).2]; omega

/-- Window 2's block at any point is its whole array. -/
theorem wholeBlock2 (c : Dev nD) (t : Fin cfg0.N) : (iblk m c 2 t : Vec Ideal S1024x1024 .bf16) = V m c main_v0 := by
  funext y
  unfold iblk
  rw [View.read_apply]
  show (V m c main_v0 : S1024x1024.Idx → EReal) _ = _
  refine congrArg _ (funext fun a => Fin.ext ?_)
  match a with
  | ⟨0, _⟩ => show win0_2.index t (0 : Fin 2) * 1024 + 1 * (y 0).val = (y 0).val; rw [(whole_index2 t).1]; omega
  | ⟨1, _⟩ => show win0_2.index t (1 : Fin 2) * 1024 + 1 * (y 1).val = (y 1).val; rw [(whole_index2 t).2]; omega

/-- Window 3's block at any point is its whole array. -/
theorem wholeBlock3 (c : Dev nD) (t : Fin cfg0.N) : (iblk m c 3 t : Vec Ideal S1x1024 .f32) = V m c main_v7 := by
  funext y
  unfold iblk
  rw [View.read_apply]
  show (V m c main_v7 : S1x1024.Idx → EReal) _ = _
  refine congrArg _ (funext fun a => Fin.ext ?_)
  match a with
  | ⟨0, _⟩ => show win0_3.index t (0 : Fin 2) * 1 + 1 * (y 0).val = (y 0).val; rw [(whole_index3 t).1]; omega
  | ⟨1, _⟩ => show win0_3.index t (1 : Fin 2) * 1024 + 1 * (y 1).val = (y 1).val; rw [(whole_index3 t).2]; omega

/-- Window 4's block at any point is its whole array. -/
theorem wholeBlock4 (c : Dev nD) (t : Fin cfg0.N) : (iblk m c 4 t : Vec Ideal S1024x1024 .bf16) = V m c main_v1 := by
  funext y
  unfold iblk
  rw [View.read_apply]
  show (V m c main_v1 : S1024x1024.Idx → EReal) _ = _
  refine congrArg _ (funext fun a => Fin.ext ?_)
  match a with
  | ⟨0, _⟩ => show win0_4.index t (0 : Fin 2) * 1024 + 1 * (y 0).val = (y 0).val; rw [(whole_index4 t).1]; omega
  | ⟨1, _⟩ => show win0_4.index t (1 : Fin 2) * 1024 + 1 * (y 1).val = (y 1).val; rw [(whole_index4 t).2]; omega

/-- Window 5's block at any point is its whole array. -/
theorem wholeBlock5 (c : Dev nD) (t : Fin cfg0.N) : (iblk m c 5 t : Vec Ideal S1x1024 .f32) = V m c main_v8 := by
  funext y
  unfold iblk
  rw [View.read_apply]
  show (V m c main_v8 : S1x1024.Idx → EReal) _ = _
  refine congrArg _ (funext fun a => Fin.ext ?_)
  match a with
  | ⟨0, _⟩ => show win0_5.index t (0 : Fin 2) * 1 + 1 * (y 0).val = (y 0).val; rw [(whole_index5 t).1]; omega
  | ⟨1, _⟩ => show win0_5.index t (1 : Fin 2) * 1024 + 1 * (y 1).val = (y 1).val; rw [(whole_index5 t).2]; omega

/-- Window 6's block at any point is its whole array. -/
theorem wholeBlock6 (c : Dev nD) (t : Fin cfg0.N) : (iblk m c 6 t : Vec Ideal S1024x1024 .bf16) = V m c main_v2 := by
  funext y
  unfold iblk
  rw [View.read_apply]
  show (V m c main_v2 : S1024x1024.Idx → EReal) _ = _
  refine congrArg _ (funext fun a => Fin.ext ?_)
  match a with
  | ⟨0, _⟩ => show win0_6.index t (0 : Fin 2) * 1024 + 1 * (y 0).val = (y 0).val; rw [(whole_index6 t).1]; omega
  | ⟨1, _⟩ => show win0_6.index t (1 : Fin 2) * 1024 + 1 * (y 1).val = (y 1).val; rw [(whole_index6 t).2]; omega

/-- Window 7's block at any point is its whole array. -/
theorem wholeBlock7 (c : Dev nD) (t : Fin cfg0.N) : (iblk m c 7 t : Vec Ideal S1x1024 .f32) = V m c main_v9 := by
  funext y
  unfold iblk
  rw [View.read_apply]
  show (V m c main_v9 : S1x1024.Idx → EReal) _ = _
  refine congrArg _ (funext fun a => Fin.ext ?_)
  match a with
  | ⟨0, _⟩ => show win0_7.index t (0 : Fin 2) * 1 + 1 * (y 0).val = (y 0).val; rw [(whole_index7 t).1]; omega
  | ⟨1, _⟩ => show win0_7.index t (1 : Fin 2) * 1024 + 1 * (y 1).val = (y 1).val; rw [(whole_index7 t).2]; omega

/-- Window 8's block at any point is its whole array. -/
theorem wholeBlock8 (c : Dev nD) (t : Fin cfg0.N) : (iblk m c 8 t : Vec Ideal S1024x1024 .bf16) = V m c main_v3 := by
  funext y
  unfold iblk
  rw [View.read_apply]
  show (V m c main_v3 : S1024x1024.Idx → EReal) _ = _
  refine congrArg _ (funext fun a => Fin.ext ?_)
  match a with
  | ⟨0, _⟩ => show win0_8.index t (0 : Fin 2) * 1024 + 1 * (y 0).val = (y 0).val; rw [(whole_index8 t).1]; omega
  | ⟨1, _⟩ => show win0_8.index t (1 : Fin 2) * 1024 + 1 * (y 1).val = (y 1).val; rw [(whole_index8 t).2]; omega

/-- Window 9's block at any point is its whole array. -/
theorem wholeBlock9 (c : Dev nD) (t : Fin cfg0.N) : (iblk m c 9 t : Vec Ideal S1024x1024 .bf16) = V m c main_v4 := by
  funext y
  unfold iblk
  rw [View.read_apply]
  show (V m c main_v4 : S1024x1024.Idx → EReal) _ = _
  refine congrArg _ (funext fun a => Fin.ext ?_)
  match a with
  | ⟨0, _⟩ => show win0_9.index t (0 : Fin 2) * 1024 + 1 * (y 0).val = (y 0).val; rw [(whole_index9 t).1]; omega
  | ⟨1, _⟩ => show win0_9.index t (1 : Fin 2) * 1024 + 1 * (y 1).val = (y 1).val; rw [(whole_index9 t).2]; omega

/-- Window 10's block at any point is its whole array. -/
theorem wholeBlock10 (c : Dev nD) (t : Fin cfg0.N) : (iblk m c 10 t : Vec Ideal S1024x1024 .bf16) = V m c main_v5 := by
  funext y
  unfold iblk
  rw [View.read_apply]
  show (V m c main_v5 : S1024x1024.Idx → EReal) _ = _
  refine congrArg _ (funext fun a => Fin.ext ?_)
  match a with
  | ⟨0, _⟩ => show win0_10.index t (0 : Fin 2) * 1024 + 1 * (y 0).val = (y 0).val; rw [(whole_index10 t).1]; omega
  | ⟨1, _⟩ => show win0_10.index t (1 : Fin 2) * 1024 + 1 * (y 1).val = (y 1).val; rw [(whole_index10 t).2]; omega

/-- Window 11's block at any point is its whole array. -/
theorem wholeBlock11 (c : Dev nD) (t : Fin cfg0.N) : (iblk m c 11 t : Vec Ideal S1x1024 .f32) = V m c main_v10 := by
  funext y
  unfold iblk
  rw [View.read_apply]
  show (V m c main_v10 : S1x1024.Idx → EReal) _ = _
  refine congrArg _ (funext fun a => Fin.ext ?_)
  match a with
  | ⟨0, _⟩ => show win0_11.index t (0 : Fin 2) * 1 + 1 * (y 0).val = (y 0).val; rw [(whole_index11 t).1]; omega
  | ⟨1, _⟩ => show win0_11.index t (1 : Fin 2) * 1024 + 1 * (y 1).val = (y 1).val; rw [(whole_index11 t).2]; omega

/-- Window 12's block at any point is its whole array. -/
theorem wholeBlock12 (c : Dev nD) (t : Fin cfg0.N) : (iblk m c 12 t : Vec Ideal S1x1024 .f32) = V m c main_v11 := by
  funext y
  unfold iblk
  rw [View.read_apply]
  show (V m c main_v11 : S1x1024.Idx → EReal) _ = _
  refine congrArg _ (funext fun a => Fin.ext ?_)
  match a with
  | ⟨0, _⟩ => show win0_12.index t (0 : Fin 2) * 1 + 1 * (y 0).val = (y 0).val; rw [(whole_index12 t).1]; omega
  | ⟨1, _⟩ => show win0_12.index t (1 : Fin 2) * 1024 + 1 * (y 1).val = (y 1).val; rw [(whole_index12 t).2]; omega

/-- Window 13's block at any point is its whole array. -/
theorem wholeBlock13 (c : Dev nD) (t : Fin cfg0.N) : (iblk m c 13 t : Vec Ideal S1x1024 .f32) = V m c main_v12 := by
  funext y
  unfold iblk
  rw [View.read_apply]
  show (V m c main_v12 : S1x1024.Idx → EReal) _ = _
  refine congrArg _ (funext fun a => Fin.ext ?_)
  match a with
  | ⟨0, _⟩ => show win0_13.index t (0 : Fin 2) * 1 + 1 * (y 0).val = (y 0).val; rw [(whole_index13 t).1]; omega
  | ⟨1, _⟩ => show win0_13.index t (1 : Fin 2) * 1024 + 1 * (y 1).val = (y 1).val; rw [(whole_index13 t).2]; omega

/-- Window 14's block at any point is its whole array. -/
theorem wholeBlock14 (c : Dev nD) (t : Fin cfg0.N) : (iblk m c 14 t : Vec Ideal S1024x1024 .bf16) = V m c main_v6 := by
  funext y
  unfold iblk
  rw [View.read_apply]
  show (V m c main_v6 : S1024x1024.Idx → EReal) _ = _
  refine congrArg _ (funext fun a => Fin.ext ?_)
  match a with
  | ⟨0, _⟩ => show win0_14.index t (0 : Fin 2) * 1024 + 1 * (y 0).val = (y 0).val; rw [(whole_index14 t).1]; omega
  | ⟨1, _⟩ => show win0_14.index t (1 : Fin 2) * 1024 + 1 * (y 1).val = (y 1).val; rw [(whole_index14 t).2]; omega

/-- Window 15's block at any point is its whole array. -/
theorem wholeBlock15 (c : Dev nD) (t : Fin cfg0.N) : (iblk m c 15 t : Vec Ideal S1x1024 .f32) = V m c main_v13 := by
  funext y
  unfold iblk
  rw [View.read_apply]
  show (V m c main_v13 : S1x1024.Idx → EReal) _ = _
  refine congrArg _ (funext fun a => Fin.ext ?_)
  match a with
  | ⟨0, _⟩ => show win0_15.index t (0 : Fin 2) * 1 + 1 * (y 0).val = (y 0).val; rw [(whole_index15 t).1]; omega
  | ⟨1, _⟩ => show win0_15.index t (1 : Fin 2) * 1024 + 1 * (y 1).val = (y 1).val; rw [(whole_index15 t).2]; omega

/-! ## The parameter arrays as the region finds them

The host narrows each weight matrix before the call, which at the ideal values changes nothing, and re-lays each
row-shaped parameter from `[1024]` to `[1, 1024]`, whose one row is the original. -/

theorem staged_main_v0 (c : Dev nD) : (V m c main_v0 : S1024x1024.Idx → EReal) = (m ((c : Thread nD τ).loc main_arg2)) := by
  dsimp only [Gen.V, Gen.hostOps0]; after_results; rfl

theorem staged_main_v1 (c : Dev nD) : (V m c main_v1 : S1024x1024.Idx → EReal) = (m ((c : Thread nD τ).loc main_arg4)) := by
  dsimp only [Gen.V, Gen.hostOps0]; after_results; rfl

theorem staged_main_v2 (c : Dev nD) : (V m c main_v2 : S1024x1024.Idx → EReal) = (m ((c : Thread nD τ).loc main_arg6)) := by
  dsimp only [Gen.V, Gen.hostOps0]; after_results; rfl

theorem staged_main_v3 (c : Dev nD) : (V m c main_v3 : S1024x1024.Idx → EReal) = (m ((c : Thread nD τ).loc main_arg8)) := by
  dsimp only [Gen.V, Gen.hostOps0]; after_results; rfl

theorem staged_main_v4 (c : Dev nD) : (V m c main_v4 : S1024x1024.Idx → EReal) = (m ((c : Thread nD τ).loc main_arg9)) := by
  dsimp only [Gen.V, Gen.hostOps0]; after_results; rfl

theorem staged_main_v5 (c : Dev nD) : (V m c main_v5 : S1024x1024.Idx → EReal) = (m ((c : Thread nD τ).loc main_arg10)) := by
  dsimp only [Gen.V, Gen.hostOps0]; after_results; rfl

theorem staged_main_v6 (c : Dev nD) : (V m c main_v6 : S1024x1024.Idx → EReal) = (m ((c : Thread nD τ).loc main_arg14)) := by
  dsimp only [Gen.V, Gen.hostOps0]; after_results; rfl

theorem staged_main_v7 (c : Dev nD) : rowOfOneRow (V m c main_v7 : S1x1024.Idx → EReal) = rowOfVec (m ((c : Thread nD τ).loc main_arg3)) := by
  have e : (V m c main_v7 : S1x1024.Idx → EReal)
      = shapeCast S1x1024 ((m ((c : Thread nD τ).loc main_arg3)) : S1024.Idx → EReal) Gen.shapeCasts_S1024_S1x1024 := by
    dsimp only [Gen.V, Gen.hostOps0]; after_results; rfl
  funext j
  show (V m c main_v7 : S1x1024.Idx → EReal) (ix2 (0 : Fin 1) j) = _
  rw [e]
  exact shapeCast_a_1a_apply _ _ 0 j

theorem staged_main_v8 (c : Dev nD) : rowOfOneRow (V m c main_v8 : S1x1024.Idx → EReal) = rowOfVec (m ((c : Thread nD τ).loc main_arg5)) := by
  have e : (V m c main_v8 : S1x1024.Idx → EReal)
      = shapeCast S1x1024 ((m ((c : Thread nD τ).loc main_arg5)) : S1024.Idx → EReal) Gen.shapeCasts_S1024_S1x1024 := by
    dsimp only [Gen.V, Gen.hostOps0]; after_results; rfl
  funext j
  show (V m c main_v8 : S1x1024.Idx → EReal) (ix2 (0 : Fin 1) j) = _
  rw [e]
  exact shapeCast_a_1a_apply _ _ 0 j

theorem staged_main_v9 (c : Dev nD) : rowOfOneRow (V m c main_v9 : S1x1024.Idx → EReal) = rowOfVec (m ((c : Thread nD τ).loc main_arg7)) := by
  have e : (V m c main_v9 : S1x1024.Idx → EReal)
      = shapeCast S1x1024 ((m ((c : Thread nD τ).loc main_arg7)) : S1024.Idx → EReal) Gen.shapeCasts_S1024_S1x1024 := by
    dsimp only [Gen.V, Gen.hostOps0]; after_results; rfl
  funext j
  show (V m c main_v9 : S1x1024.Idx → EReal) (ix2 (0 : Fin 1) j) = _
  rw [e]
  exact shapeCast_a_1a_apply _ _ 0 j

theorem staged_main_v10 (c : Dev nD) : rowOfOneRow (V m c main_v10 : S1x1024.Idx → EReal) = rowOfVec (m ((c : Thread nD τ).loc main_arg11)) := by
  have e : (V m c main_v10 : S1x1024.Idx → EReal)
      = shapeCast S1x1024 ((m ((c : Thread nD τ).loc main_arg11)) : S1024.Idx → EReal) Gen.shapeCasts_S1024_S1x1024 := by
    dsimp only [Gen.V, Gen.hostOps0]; after_results; rfl
  funext j
  show (V m c main_v10 : S1x1024.Idx → EReal) (ix2 (0 : Fin 1) j) = _
  rw [e]
  exact shapeCast_a_1a_apply _ _ 0 j

theorem staged_main_v11 (c : Dev nD) : rowOfOneRow (V m c main_v11 : S1x1024.Idx → EReal) = rowOfVec (m ((c : Thread nD τ).loc main_arg12)) := by
  have e : (V m c main_v11 : S1x1024.Idx → EReal)
      = shapeCast S1x1024 ((m ((c : Thread nD τ).loc main_arg12)) : S1024.Idx → EReal) Gen.shapeCasts_S1024_S1x1024 := by
    dsimp only [Gen.V, Gen.hostOps0]; after_results; rfl
  funext j
  show (V m c main_v11 : S1x1024.Idx → EReal) (ix2 (0 : Fin 1) j) = _
  rw [e]
  exact shapeCast_a_1a_apply _ _ 0 j

theorem staged_main_v12 (c : Dev nD) : rowOfOneRow (V m c main_v12 : S1x1024.Idx → EReal) = rowOfVec (m ((c : Thread nD τ).loc main_arg13)) := by
  have e : (V m c main_v12 : S1x1024.Idx → EReal)
      = shapeCast S1x1024 ((m ((c : Thread nD τ).loc main_arg13)) : S1024.Idx → EReal) Gen.shapeCasts_S1024_S1x1024 := by
    dsimp only [Gen.V, Gen.hostOps0]; after_results; rfl
  funext j
  show (V m c main_v12 : S1x1024.Idx → EReal) (ix2 (0 : Fin 1) j) = _
  rw [e]
  exact shapeCast_a_1a_apply _ _ 0 j

theorem staged_main_v13 (c : Dev nD) : rowOfOneRow (V m c main_v13 : S1x1024.Idx → EReal) = rowOfVec (m ((c : Thread nD τ).loc main_arg15)) := by
  have e : (V m c main_v13 : S1x1024.Idx → EReal)
      = shapeCast S1x1024 ((m ((c : Thread nD τ).loc main_arg15)) : S1024.Idx → EReal) Gen.shapeCasts_S1024_S1x1024 := by
    dsimp only [Gen.V, Gen.hostOps0]; after_results; rfl
  funext j
  show (V m c main_v13 : S1x1024.Idx → EReal) (ix2 (0 : Fin 1) j) = _
  rw [e]
  exact shapeCast_a_1a_apply _ _ 0 j

/-- The cell's weights from the fourteen parameter arrays as the region finds them. -/
def stagedWeights (c : Dev nD) : Weights :=
  weightsOfOneRows (V m c main_v0) (V m c main_v7) (V m c main_v1) (V m c main_v8) (V m c main_v2) (V m c main_v9) (V m c main_v3) (V m c main_v4) (V m c main_v5) (V m c main_v10) (V m c main_v11) (V m c main_v12) (V m c main_v6) (V m c main_v13)

/-- The cell's weights from the fourteen parameter arrays of the launch memory. -/
def launchWeights (c : Dev nD) : Weights :=
  weightsOfVecs (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))

/-- They are the same weights. -/
theorem stagedWeights_eq (c : Dev nD) : stagedWeights m c = launchWeights m c := by
  unfold stagedWeights launchWeights weightsOfOneRows weightsOfVecs
  rw [staged_main_v0 m c, staged_main_v7 m c, staged_main_v1 m c, staged_main_v8 m c, staged_main_v2 m c, staged_main_v9 m c, staged_main_v3 m c, staged_main_v4 m c, staged_main_v5 m c, staged_main_v10 m c, staged_main_v11 m c, staged_main_v12 m c, staged_main_v6 m c, staged_main_v13 m c]

/-- The parameter blocks a point stages are the parameter arrays, so they give the same weights. -/
theorem blockWeights_eq (c : Dev nD) (t : Fin cfg0.N) :
    weightsOfOneRows (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
      = stagedWeights m c := by
  unfold stagedWeights
  rw [wholeBlock2 m c t, wholeBlock3 m c t, wholeBlock4 m c t, wholeBlock5 m c t, wholeBlock6 m c t, wholeBlock7 m c t, wholeBlock8 m c t, wholeBlock9 m c t, wholeBlock10 m c t, wholeBlock11 m c t, wholeBlock12 m c t, wholeBlock13 m c t, wholeBlock14 m c t, wholeBlock15 m c t]

/-! ## What each point writes back is its block of the whole-array result -/

/-- Point `t` writes back rows `256 t … 256 t + 255` of `newStateArray` of the arrays as the region finds them. -/
theorem flushed16_eq (c : Dev nD) (t : Fin cfg0.N) :
    (dats m 0 c).flushed 16 t
      = ((cfg0.win 16).blk t).view.read (Elt Ideal) (newStateArray (stagedWeights m c) (V m c main_arg0) (V m c main_arg1)) := by
  rw [Value.flushed16]
  funext y
  obtain ⟨p, q, rfl⟩ : ∃ (p : Fin 256) (q : Fin 1024), y = ix2 p q := ⟨y 0, y 1, eq_ix2 y⟩
  have h0 : ((((cfg0.win 16).blk t).view.emb (ix2 p q)) 0).val = 256 * t.val + p.val := by
    show win0_16.index t (0 : Fin 2) * 256 + 1 * p.val = _
    rw [(rows_index16 t).1]; omega
  have h1 : (((cfg0.win 16).blk t).view.emb (ix2 p q)) 1 = q := Fin.ext (by
    show win0_16.index t (1 : Fin 2) * 1024 + 1 * q.val = q.val
    rw [(rows_index16 t).2]; omega)
  refine (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p q).trans ?_
  show _ = newState (stagedWeights m c)
    (rowAt (V m c main_arg0 : S8192x1024.Idx → EReal) ((((cfg0.win 16).blk t).view.emb (ix2 p q)) 0))
    (rowAt (V m c main_arg1 : S8192x1024.Idx → EReal) ((((cfg0.win 16).blk t).view.emb (ix2 p q)) 0))
    ((((cfg0.win 16).blk t).view.emb (ix2 p q)) 1)
  rw [h1, blockWeights_eq m c t, rowBlock0 m c t p _ h0, rowBlock1 m c t p _ h0]

/-- An index of the array is in point `t`'s block iff its row lies in the point's 256 rows. -/
theorem mem_blk16 (t : Fin cfg0.N) (i : S8192x1024.Idx) :
    i ∈ ((cfg0.win 16).blk t).view.set ↔ ∀ a : Fin 2, win0_16.index t a * S256x1024.size a ≤ (i a).val
      ∧ (i a).val < win0_16.index t a * S256x1024.size a + S256x1024.size a := by
  show i ∈ ((View.whole main_v14_0).slice (win0_16.rect t)).set ↔ _
  rw [View.set_slice_whole, Rect.mem_set_unit]
  exact Iff.rfl

/-- Every index of the array is in some point's block: row `r` is in point `r / 256`'s. -/
theorem cover16 (i : S8192x1024.Idx) :
    ∃ t : Fin cfg0.N, (cfg0.win 16).flush t = true ∧ i ∈ ((cfg0.win 16).blk t).view.set := by
  have hi0 : (i 0).val < 8192 := (i 0).isLt
  have hi1 : (i 1).val < 1024 := (i 1).isLt
  refine ⟨⟨(i 0).val / 256, by rw [show cfg0.N = 32 from N_0]; omega⟩, flush0_16 _, ?_⟩
  rw [mem_blk16]
  intro a
  match a with
  | ⟨0, _⟩ =>
    show win0_16.index _ (0 : Fin 2) * 256 ≤ (i 0).val ∧ (i 0).val < win0_16.index _ (0 : Fin 2) * 256 + 256
    rw [(rows_index16 _).1]
    show (i 0).val / 256 * 256 ≤ (i 0).val ∧ (i 0).val < (i 0).val / 256 * 256 + 256
    omega
  | ⟨1, _⟩ =>
    show win0_16.index _ (1 : Fin 2) * 1024 ≤ (i 1).val ∧ (i 1).val < win0_16.index _ (1 : Fin 2) * 1024 + 1024
    rw [(rows_index16 _).2]
    omega

/-- So after the run the array is `newStateArray` of the launch memory's arrays. -/
theorem final16 (c : Dev nD) :
    (dats m 0 c).arrAt 16 cfg0.N
      = newStateArray (launchWeights m c) (m ((c : Thread nD τ).loc main_arg0)) (m ((c : Thread nD τ).loc main_arg1)) := by
  rw [← stagedWeights_eq m c, ← V_main_arg0 m c, ← V_main_arg1 m c]
  exact (dats m 0 c).arrAt_eq_of_cover 16 _ (fun t _ => flushed16_eq m c t) (cover16)

/-- Point `t` writes back rows `256 t … 256 t + 255` of `readoutArray` of the arrays as the region finds them. -/
theorem flushed17_eq (c : Dev nD) (t : Fin cfg0.N) :
    (dats m 0 c).flushed 17 t
      = ((cfg0.win 17).blk t).view.read (Elt Ideal) (readoutArray (stagedWeights m c) (V m c main_arg0) (V m c main_arg1)) := by
  rw [Value.flushed17]
  funext y
  obtain ⟨p, q, rfl⟩ : ∃ (p : Fin 256) (q : Fin 1024), y = ix2 p q := ⟨y 0, y 1, eq_ix2 y⟩
  have h0 : ((((cfg0.win 17).blk t).view.emb (ix2 p q)) 0).val = 256 * t.val + p.val := by
    show win0_17.index t (0 : Fin 2) * 256 + 1 * p.val = _
    rw [(rows_index17 t).1]; omega
  have h1 : (((cfg0.win 17).blk t).view.emb (ix2 p q)) 1 = q := Fin.ext (by
    show win0_17.index t (1 : Fin 2) * 1024 + 1 * q.val = q.val
    rw [(rows_index17 t).2]; omega)
  refine (out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p q).trans ?_
  show _ = readout (stagedWeights m c)
    (rowAt (V m c main_arg0 : S8192x1024.Idx → EReal) ((((cfg0.win 17).blk t).view.emb (ix2 p q)) 0))
    (rowAt (V m c main_arg1 : S8192x1024.Idx → EReal) ((((cfg0.win 17).blk t).view.emb (ix2 p q)) 0))
    ((((cfg0.win 17).blk t).view.emb (ix2 p q)) 1)
  rw [h1, blockWeights_eq m c t, rowBlock0 m c t p _ h0, rowBlock1 m c t p _ h0]

/-- An index of the array is in point `t`'s block iff its row lies in the point's 256 rows. -/
theorem mem_blk17 (t : Fin cfg0.N) (i : S8192x1024.Idx) :
    i ∈ ((cfg0.win 17).blk t).view.set ↔ ∀ a : Fin 2, win0_17.index t a * S256x1024.size a ≤ (i a).val
      ∧ (i a).val < win0_17.index t a * S256x1024.size a + S256x1024.size a := by
  show i ∈ ((View.whole main_v14_1).slice (win0_17.rect t)).set ↔ _
  rw [View.set_slice_whole, Rect.mem_set_unit]
  exact Iff.rfl

/-- Every index of the array is in some point's block: row `r` is in point `r / 256`'s. -/
theorem cover17 (i : S8192x1024.Idx) :
    ∃ t : Fin cfg0.N, (cfg0.win 17).flush t = true ∧ i ∈ ((cfg0.win 17).blk t).view.set := by
  have hi0 : (i 0).val < 8192 := (i 0).isLt
  have hi1 : (i 1).val < 1024 := (i 1).isLt
  refine ⟨⟨(i 0).val / 256, by rw [show cfg0.N = 32 from N_0]; omega⟩, flush0_17 _, ?_⟩
  rw [mem_blk17]
  intro a
  match a with
  | ⟨0, _⟩ =>
    show win0_17.index _ (0 : Fin 2) * 256 ≤ (i 0).val ∧ (i 0).val < win0_17.index _ (0 : Fin 2) * 256 + 256
    rw [(rows_index17 _).1]
    show (i 0).val / 256 * 256 ≤ (i 0).val ∧ (i 0).val < (i 0).val / 256 * 256 + 256
    omega
  | ⟨1, _⟩ =>
    show win0_17.index _ (1 : Fin 2) * 1024 ≤ (i 1).val ∧ (i 1).val < win0_17.index _ (1 : Fin 2) * 1024 + 1024
    rw [(rows_index17 _).2]
    omega

/-- So after the run the array is `readoutArray` of the launch memory's arrays. -/
theorem final17 (c : Dev nD) :
    (dats m 0 c).arrAt 17 cfg0.N
      = readoutArray (launchWeights m c) (m ((c : Thread nD τ).loc main_arg0)) (m ((c : Thread nD τ).loc main_arg1)) := by
  rw [← stagedWeights_eq m c, ← V_main_arg0 m c, ← V_main_arg1 m c]
  exact (dats m 0 c).arrAt_eq_of_cover 17 _ (fun t _ => flushed17_eq m c t) (cover17)

/-! ## The run, read -/

/-- Every weakly fair execution of the kernel's program ends with the first result holding the new state of every row and
    the second the read-out of every row, as functions of the launch memory's arrays, and the arguments unchanged. -/
theorem run : θ_run defs (onTc (τ := τ) (main (F := Ideal))) ⟨m, fun _ => 0, ρ⟩ fun r => ∀ c : Dev nD,
      r.2.mem ((c : Thread nD τ).loc main_v14_0)
        = newStateArray (launchWeights m c) (m ((c : Thread nD τ).loc main_arg0)) (m ((c : Thread nD τ).loc main_arg1))
      ∧ r.2.mem ((c : Thread nD τ).loc main_v14_1)
        = readoutArray (launchWeights m c) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final16 m c), (h c).2.1.trans (final17 m c), (h c).2.2⟩)
    (Value.run_blocks m ρ)

end Cert.GruKernel

end
-- ==== Proof.RefRow.lean ====
/-
  The reference program, one host operation at a time, read at row `r` and lane `j` of the batch: each of its stages is
  the matching piece of the row-wise cell, normalisation and read-out applied to row `r` of the inputs and of the
  previous states. The reference spells the logistic function as `1 / (1 + e^(-t))` and a mean as a sum started from the
  float zero and divided by the float `1024`; the sums are finite sums over the 1024 lanes, so their order is not visible.
  At the end, its two results are the new state and the read-out of every row, as whole arrays.
-/
import proofs.«412498_j20117626814952_3_alg».proof.Proof.Gen.ReferenceIdeal.Read
import proofs.«412498_j20117626814952_3_alg».proof.Proof.GruRow

noncomputable section

namespace Cert.GruRef

open Idealize.ShloMosaic Idealize.ShloMosaic.ValueIdx Cert.ReferenceIdeal Cert.ReferenceIdeal.Read Cert.GruRow

variable (x0 x1 : (⟨S8192x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 x9 x10 : (⟨S1024x1024, .f32⟩ : BufTy).Contents (Elt Ideal)) (x11 x12 x13 : (⟨S1024, .f32⟩ : BufTy).Contents (Elt Ideal))
  (x14 : (⟨S1024x1024, .f32⟩ : BufTy).Contents (Elt Ideal)) (x15 : (⟨S1024, .f32⟩ : BufTy).Contents (Elt Ideal))
  (r : Fin 8192) (j : Fin 1024)

/-! ## The six products of the cell and the four row-shaped parameters it adds, at row `r` and lane `j` -/

/-- The inputs times the reset gate's input weights. -/
theorem dot_v0 : val_main_v0 (F := Ideal) x0 x2 (ix2 r j) = lin (matOf x2) (rowAt x0 r) j :=
  (val_main_v0_apply x0 x2 (ix2 r j)).trans
    (sum_rows x0 x2 r j _ _ (fun _ => idx2_ext _ _ rfl rfl) (fun _ => idx2_ext _ _ rfl rfl))

/-- The previous states times the reset gate's state weights. -/
theorem dot_v4 : val_main_v4 (F := Ideal) x1 x8 (ix2 r j) = lin (matOf x8) (rowAt x1 r) j :=
  (val_main_v4_apply x1 x8 (ix2 r j)).trans
    (sum_rows x1 x8 r j _ _ (fun _ => idx2_ext _ _ rfl rfl) (fun _ => idx2_ext _ _ rfl rfl))

/-- The inputs times the update gate's input weights. -/
theorem dot_v12 : val_main_v12 (F := Ideal) x0 x4 (ix2 r j) = lin (matOf x4) (rowAt x0 r) j :=
  (val_main_v12_apply x0 x4 (ix2 r j)).trans
    (sum_rows x0 x4 r j _ _ (fun _ => idx2_ext _ _ rfl rfl) (fun _ => idx2_ext _ _ rfl rfl))

/-- The previous states times the update gate's state weights. -/
theorem dot_v16 : val_main_v16 (F := Ideal) x1 x9 (ix2 r j) = lin (matOf x9) (rowAt x1 r) j :=
  (val_main_v16_apply x1 x9 (ix2 r j)).trans
    (sum_rows x1 x9 r j _ _ (fun _ => idx2_ext _ _ rfl rfl) (fun _ => idx2_ext _ _ rfl rfl))

/-- The inputs times the candidate's input weights. -/
theorem dot_v24 : val_main_v24 (F := Ideal) x0 x6 (ix2 r j) = lin (matOf x6) (rowAt x0 r) j :=
  (val_main_v24_apply x0 x6 (ix2 r j)).trans
    (sum_rows x0 x6 r j _ _ (fun _ => idx2_ext _ _ rfl rfl) (fun _ => idx2_ext _ _ rfl rfl))

/-- The previous states times the candidate's state weights. -/
theorem dot_v28 : val_main_v28 (F := Ideal) x1 x10 (ix2 r j) = lin (matOf x10) (rowAt x1 r) j :=
  (val_main_v28_apply x1 x10 (ix2 r j)).trans
    (sum_rows x1 x10 r j _ _ (fun _ => idx2_ext _ _ rfl rfl) (fun _ => idx2_ext _ _ rfl rfl))

/-- The reset gate's bias, broadcast over the rows. -/
theorem bias_v2 : val_main_v2 (F := Ideal) x3 (ix2 r j) = rowOfVec x3 j := by
  rw [val_main_v2_apply, val_main_v1_apply]
  exact congrArg x3 (idx1_ext _ _ rfl)

/-- The update gate's bias, broadcast over the rows. -/
theorem bias_v14 : val_main_v14 (F := Ideal) x5 (ix2 r j) = rowOfVec x5 j := by
  rw [val_main_v14_apply, val_main_v13_apply]
  exact congrArg x5 (idx1_ext _ _ rfl)

/-- The candidate's input bias, broadcast over the rows. -/
theorem bias_v26 : val_main_v26 (F := Ideal) x7 (ix2 r j) = rowOfVec x7 j := by
  rw [val_main_v26_apply, val_main_v25_apply]
  exact congrArg x7 (idx1_ext _ _ rfl)

/-- The candidate's state bias, broadcast over the rows. -/
theorem bias_v30 : val_main_v30 (F := Ideal) x11 (ix2 r j) = rowOfVec x11 j := by
  rw [val_main_v30_apply, val_main_v29_apply]
  exact congrArg x11 (idx1_ext _ _ rfl)

/-- The normalisation's scale, broadcast over the rows. -/
theorem bias_v59 : val_main_v59 (F := Ideal) x12 (ix2 r j) = rowOfVec x12 j := by
  rw [val_main_v59_apply, val_main_v58_apply]
  exact congrArg x12 (idx1_ext _ _ rfl)

/-- The normalisation's shift, broadcast over the rows. -/
theorem bias_v62 : val_main_v62 (F := Ideal) x13 (ix2 r j) = rowOfVec x13 j := by
  rw [val_main_v62_apply, val_main_v61_apply]
  exact congrArg x13 (idx1_ext _ _ rfl)

/-- The read-out's bias, broadcast over the rows. -/
theorem bias_v66 : val_main_v66 (F := Ideal) x15 (ix2 r j) = rowOfVec x15 j := by
  rw [val_main_v66_apply, val_main_v65_apply]
  exact congrArg x15 (idx1_ext _ _ rfl)

/-! ## The cell -/

/-- The reference's reset gate, spelt `1 / (1 + e^(-t))`, is the logistic function of the same `t`. -/
theorem resetGate_ref : val_main_v11 (F := Ideal) x0 x1 x2 x3 x8 (ix2 r j) = resetGate (weightsOfVecs x2 x3 x4 x5 x6 x7 x8 x9 x10 x11 x12 x13 x14 x15) (rowAt x0 r) (rowAt x1 r) j := by
  rw [val_main_v11_apply, val_main_v10_apply, val_main_cst_0_apply, val_main_v9_apply, val_main_v8_apply, val_main_cst_apply,
    val_main_v7_apply, val_main_v6_apply, val_main_v5_apply, val_main_v3_apply, dot_v0, bias_v2, dot_v4]
  exact logistic_spelt _

/-- The reference's update gate. -/
theorem updateGate_ref : val_main_v23 (F := Ideal) x0 x1 x4 x5 x9 (ix2 r j) = updateGate (weightsOfVecs x2 x3 x4 x5 x6 x7 x8 x9 x10 x11 x12 x13 x14 x15) (rowAt x0 r) (rowAt x1 r) j := by
  rw [val_main_v23_apply, val_main_v22_apply, val_main_cst_2_apply, val_main_v21_apply, val_main_v20_apply, val_main_cst_1_apply,
    val_main_v19_apply, val_main_v18_apply, val_main_v17_apply, val_main_v15_apply, dot_v12, bias_v14, dot_v16]
  exact logistic_spelt _

/-- The reference's candidate state. -/
theorem candidate_ref : val_main_v34 (F := Ideal) x0 x1 x2 x3 x6 x7 x8 x10 x11 (ix2 r j) = candidate (weightsOfVecs x2 x3 x4 x5 x6 x7 x8 x9 x10 x11 x12 x13 x14 x15) (rowAt x0 r) (rowAt x1 r) j := by
  rw [val_main_v34_apply, val_main_v33_apply, val_main_v27_apply, val_main_v32_apply, val_main_v31_apply, dot_v24, bias_v26,
    dot_v28, bias_v30, resetGate_ref x0 x1 x2 x3 x4 x5 x6 x7 x8 x9 x10 x11 x12 x13 x14 x15]
  rfl

/-- The reference's new state. -/
theorem newState_ref : val_main_v39 (F := Ideal) x0 x1 x2 x3 x4 x5 x6 x7 x8 x9 x10 x11 (ix2 r j) = newState (weightsOfVecs x2 x3 x4 x5 x6 x7 x8 x9 x10 x11 x12 x13 x14 x15) (rowAt x0 r) (rowAt x1 r) j := by
  rw [val_main_v39_apply, val_main_v37_apply, val_main_v38_apply, val_main_v36_apply, val_main_v35_apply, val_main_cst_3_apply,
    candidate_ref x0 x1 x2 x3 x4 x5 x6 x7 x8 x9 x10 x11 x12 x13 x14 x15,
    updateGate_ref x0 x1 x2 x3 x4 x5 x6 x7 x8 x9 x10 x11 x12 x13 x14 x15]
  rfl

/-! ## The normalisation -/

/-- The reference's mean of row `r`, wherever in the column shape it is read. -/
theorem mean_ref (i : S8192x1.Idx) (hi : (i 0).val = r.val) :
    val_main_v43 (F := Ideal) x0 x1 x2 x3 x4 x5 x6 x7 x8 x9 x10 x11 i = mean (weightsOfVecs x2 x3 x4 x5 x6 x7 x8 x9 x10 x11 x12 x13 x14 x15) (rowAt x0 r) (rowAt x1 r) := by
  rw [val_main_v43_apply, val_main_v41_apply, val_main_v40_apply, val_main_v42_apply, val_main_cst_5_apply, val_main_cst_4_apply]
  have hs : ∀ k : Fin 1024, val_main_v39 (F := Ideal) x0 x1 x2 x3 x4 x5 x6 x7 x8 x9 x10 x11 (idx_main_v40 (idx_main_v41 i) k)
      = newState (weightsOfVecs x2 x3 x4 x5 x6 x7 x8 x9 x10 x11 x12 x13 x14 x15) (rowAt x0 r) (rowAt x1 r) k := fun k => by
    rw [idx2_ext (idx_main_v40 (idx_main_v41 i) k) (ix2 r k) hi rfl]
    exact newState_ref x0 x1 x2 x3 x4 x5 x6 x7 x8 x9 x10 x11 x12 x13 x14 x15 r k
  simp only [hs]
  exact congrArg (fun s => Ideal.div s width) (zero_word_add _)

/-- The reference's centred state (it computes it twice; this is the copy it squares). -/
theorem centred_ref : val_main_v45 (F := Ideal) x0 x1 x2 x3 x4 x5 x6 x7 x8 x9 x10 x11 (ix2 r j) = centred (weightsOfVecs x2 x3 x4 x5 x6 x7 x8 x9 x10 x11 x12 x13 x14 x15) (rowAt x0 r) (rowAt x1 r) j := by
  rw [val_main_v45_apply, val_main_v44_apply, newState_ref x0 x1 x2 x3 x4 x5 x6 x7 x8 x9 x10 x11 x12 x13 x14 x15, mean_ref x0 x1 x2 x3 x4 x5 x6 x7 x8 x9 x10 x11 x12 x13 x14 x15 r _ rfl]
  rfl

/-- The reference's centred state, the copy it scales. -/
theorem centred_ref' : val_main_v52 (F := Ideal) x0 x1 x2 x3 x4 x5 x6 x7 x8 x9 x10 x11 (ix2 r j) = centred (weightsOfVecs x2 x3 x4 x5 x6 x7 x8 x9 x10 x11 x12 x13 x14 x15) (rowAt x0 r) (rowAt x1 r) j := by
  rw [val_main_v52_apply, val_main_v51_apply, newState_ref x0 x1 x2 x3 x4 x5 x6 x7 x8 x9 x10 x11 x12 x13 x14 x15, mean_ref x0 x1 x2 x3 x4 x5 x6 x7 x8 x9 x10 x11 x12 x13 x14 x15 r _ rfl]
  rfl

/-- The reference's variance of row `r` with `ε` added, wherever in the column shape it is read. -/
theorem variance_ref (i : S8192x1.Idx) (hi : (i 0).val = r.val) :
    val_main_v54 (F := Ideal) x0 x1 x2 x3 x4 x5 x6 x7 x8 x9 x10 x11 i = variance (weightsOfVecs x2 x3 x4 x5 x6 x7 x8 x9 x10 x11 x12 x13 x14 x15) (rowAt x0 r) (rowAt x1 r) + eps := by
  rw [val_main_v54_apply, val_main_v50_apply, val_main_v48_apply, val_main_v47_apply, val_main_v49_apply, val_main_cst_7_apply,
    val_main_cst_6_apply, val_main_v53_apply, val_main_cst_8_apply]
  have hs : ∀ k : Fin 1024, val_main_v46 (F := Ideal) x0 x1 x2 x3 x4 x5 x6 x7 x8 x9 x10 x11 (idx_main_v47 (idx_main_v48 i) k)
      = centred (weightsOfVecs x2 x3 x4 x5 x6 x7 x8 x9 x10 x11 x12 x13 x14 x15) (rowAt x0 r) (rowAt x1 r) k * centred (weightsOfVecs x2 x3 x4 x5 x6 x7 x8 x9 x10 x11 x12 x13 x14 x15) (rowAt x0 r) (rowAt x1 r) k := fun k => by
    rw [idx2_ext (idx_main_v47 (idx_main_v48 i) k) (ix2 r k) hi rfl, val_main_v46_apply, centred_ref x0 x1 x2 x3 x4 x5 x6 x7 x8 x9 x10 x11 x12 x13 x14 x15 r k]
    rfl
  simp only [hs]
  exact congrArg (fun s => Ideal.div s width + eps) (zero_word_add _)

/-- The reference's normalised state. -/
theorem normed_ref : val_main_v63 (F := Ideal) x0 x1 x2 x3 x4 x5 x6 x7 x8 x9 x10 x11 x12 x13 (ix2 r j) = normed (weightsOfVecs x2 x3 x4 x5 x6 x7 x8 x9 x10 x11 x12 x13 x14 x15) (rowAt x0 r) (rowAt x1 r) j := by
  rw [val_main_v63_apply, val_main_v60_apply, val_main_v57_apply, val_main_v56_apply, val_main_v55_apply, bias_v59, bias_v62,
    centred_ref' x0 x1 x2 x3 x4 x5 x6 x7 x8 x9 x10 x11 x12 x13 x14 x15, variance_ref x0 x1 x2 x3 x4 x5 x6 x7 x8 x9 x10 x11 x12 x13 x14 x15 r _ rfl]
  rfl

/-! ## The read-out -/

/-- The reference's read-out. -/
theorem readout_ref : val_main_v67 (F := Ideal) x0 x1 x2 x3 x4 x5 x6 x7 x8 x9 x10 x11 x12 x13 x14 x15 (ix2 r j) = readout (weightsOfVecs x2 x3 x4 x5 x6 x7 x8 x9 x10 x11 x12 x13 x14 x15) (rowAt x0 r) (rowAt x1 r) j := by
  rw [val_main_v67_apply, bias_v66, val_main_v64_apply]
  have hs : ∀ k : Fin 1024, val_main_v63 (F := Ideal) x0 x1 x2 x3 x4 x5 x6 x7 x8 x9 x10 x11 x12 x13 (lidx_main_v64 (ix2 r j) k) = normed (weightsOfVecs x2 x3 x4 x5 x6 x7 x8 x9 x10 x11 x12 x13 x14 x15) (rowAt x0 r) (rowAt x1 r) k := fun k => by
    rw [idx2_ext (lidx_main_v64 (ix2 r j) k) (ix2 r k) rfl rfl]
    exact normed_ref x0 x1 x2 x3 x4 x5 x6 x7 x8 x9 x10 x11 x12 x13 x14 x15 r k
  have hr : ∀ k : Fin 1024, ridx_main_v64 (ix2 r j) k = ix2 k j := fun k => idx2_ext _ _ rfl rfl
  simp only [hs, hr]
  rfl

/-! ## The two results as whole arrays -/

/-- The reference's first result is the new state of every row. -/
theorem newState_array : val_main_v39 (F := Ideal) x0 x1 x2 x3 x4 x5 x6 x7 x8 x9 x10 x11 = newStateArray (weightsOfVecs x2 x3 x4 x5 x6 x7 x8 x9 x10 x11 x12 x13 x14 x15) x0 x1 := by
  funext i
  rw [eq_ix2 i]
  exact newState_ref x0 x1 x2 x3 x4 x5 x6 x7 x8 x9 x10 x11 x12 x13 x14 x15 _ _

/-- The reference's second result is the read-out of every row. -/
theorem readout_array : val_main_v67 (F := Ideal) x0 x1 x2 x3 x4 x5 x6 x7 x8 x9 x10 x11 x12 x13 x14 x15 = readoutArray (weightsOfVecs x2 x3 x4 x5 x6 x7 x8 x9 x10 x11 x12 x13 x14 x15) x0 x1 := by
  funext i
  rw [eq_ix2 i]
  exact readout_ref x0 x1 x2 x3 x4 x5 x6 x7 x8 x9 x10 x11 x12 x13 x14 x15 _ _

end Cert.GruRef

end
-- ==== Proof.lean ====
/-
  The kernel computes, for a batch of 8192 rows, one step of a gated recurrent cell followed by a layer normalisation and
  a dense read-out, 256 rows per grid point, with its seven weight matrices narrowed to a shorter float format before
  the call; the reference computes the same two results with whole-array operations. Read at the ideal values — every
  float an extended real, every operation exact, a change of format the identity — both programs end with the first
  result holding the new state of every row and the second the read-out of every row, the SAME two functions of the sixteen
  argument arrays (Proof/GruRow.lean states them, one row at a time):

  * the kernel's side is Proof/KernelArrays.lean: what a point stores is the row-wise function of its blocks
    (Proof/BlockRow.lean, over the products and lane sums of Proof/BlockOps.lean and the column forms of
    Proof/LibColumns.lean), and the 32 blocks of rows tile each result;
  * the reference's side is Proof/RefRow.lean: its stages, read at a row and a lane, are the same pieces; it spells the
    logistic function as `1 / (1 + e^(-t))`, which is that function since the float word for `1.0` denotes `1`.

  No law of the extended reals beyond that is used: the two sides are the same tree of sums, products and functions, so
  the precondition (finite inputs) is never opened. The three frame claims are the generated frame runs (the
  reference's with its results dropped), and the kernel's idealization rewrote nothing, so `preserves` is `True`.
-/
import proofs.«412498_j20117626814952_3_alg».proof.Defs
import proofs.«412498_j20117626814952_3_alg».proof.Proof.Gen.Kernel
import proofs.«412498_j20117626814952_3_alg».proof.Proof.Gen.Kernel.Skeleton
import proofs.«412498_j20117626814952_3_alg».proof.Proof.Gen.Kernel.Launch
import proofs.«412498_j20117626814952_3_alg».proof.Proof.Gen.Kernel.Points
import proofs.«412498_j20117626814952_3_alg».proof.Proof.Gen.Kernel.Frame
import proofs.«412498_j20117626814952_3_alg».proof.Proof.Gen.KernelIdeal
import proofs.«412498_j20117626814952_3_alg».proof.Proof.Gen.KernelIdeal.Skeleton
import proofs.«412498_j20117626814952_3_alg».proof.Proof.Gen.KernelIdeal.Launch
import proofs.«412498_j20117626814952_3_alg».proof.Proof.Gen.KernelIdeal.Points
import proofs.«412498_j20117626814952_3_alg».proof.Proof.Gen.KernelIdeal.Frame
import proofs.«412498_j20117626814952_3_alg».proof.Proof.Gen.ReferenceIdeal
import proofs.«412498_j20117626814952_3_alg».proof.Proof.Gen.Pre_finite_inputs
import proofs.«412498_j20117626814952_3_alg».proof.Proof.Gen.KernelIdeal.Value
import proofs.«412498_j20117626814952_3_alg».proof.Proof.Gen.ReferenceIdeal.Run
import proofs.«412498_j20117626814952_3_alg».proof.Proof.Gen.ReferenceIdeal.Read
import proofs.«412498_j20117626814952_3_alg».proof.Proof.KernelArrays
import proofs.«412498_j20117626814952_3_alg».proof.Proof.RefRow
import Idealize.ShloMosaic.Adequacy
import Idealize.ShloMosaic.Init

noncomputable section

namespace Cert.Proof

open Idealize.ShloMosaic Idealize.SL.Sem

/-- The word-level kernel terminates, faults nowhere and leaves its arguments as they were: the generated frame run. -/
theorem frame_kernel : Cert.frame_Kernel := fun m ρ _ => Cert.Kernel.Gen.frame m ρ

/-- The same for the kernel read at the ideal values. -/
theorem frame_kernelIdeal : Cert.frame_KernelIdeal := fun m ρ _ => Cert.KernelIdeal.Gen.frame m ρ

/-- The reference has no kernel: its frame is its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel. -/
theorem preserves : Cert.preserves_Kernel_KernelIdeal := trivial

/-- From memories that agree on the sixteen arguments, the kernel ends with the new state and the read-out of every row
    (Proof/KernelArrays.lean) and so does the reference (its generated run, read by Proof/RefRow.lean): the same two
    functions of the same arrays. -/
theorem algebraic : Cert.algebraic_KernelIdeal_ReferenceIdeal := by
  intro m ρ m' ρ' _ hagree
  refine ⟨_, _, Cert.GruKernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15⟩ := hagree c
    refine (Cert.ReferenceIdeal.Read.val_main_v39_eq (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))).trans ?_
    refine (Cert.GruRef.newState_array (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))).trans ?_
    unfold Cert.GruKernel.launchWeights
    rw [e0, e1, e2, e3, e4, e5, e6, e7, e8, e9, e10, e11, e12, e13, e14, e15]
  · obtain ⟨e0, e1, e2, e3, e4, e5, e6, e7, e8, e9, e10, e11, e12, e13, e14, e15⟩ := hagree c
    refine (Cert.ReferenceIdeal.Read.val_main_v67_eq (F := Ideal) m' c).trans ?_
    refine (Cert.GruRef.readout_array (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))).trans ?_
    unfold Cert.GruKernel.launchWeights
    rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
